-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg18 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S1024x256 : Shape := ⟨2, ![1024, 256]⟩
abbrev S256x2048 : Shape := ⟨2, ![256, 2048]⟩
abbrev S1x256 : Shape := ⟨2, ![1, 256]⟩

abbrev nBuf : Space → Nat
  | .hbm => 39
  | .vmem => 34
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S8192x2048, .bf16⟩
  | .hbm, ⟨20, _⟩ => ⟨S8192x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x256, .f32⟩
  | .local _ .vmem, ⟨5, _⟩ => ⟨S1024x256, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x2048.size a
  hwx0_2 : ∀ i : grid0.Coords, EltTy.bits .f32 = 32 ∨ (Rect.block (s := S8192x2048) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .bf16 = 32 ∨ (Rect.block (s := S2048x2048) S256x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S8192x2048.size a
  hwx0_15 : ∀ i : grid0.Coords, EltTy.bits .f32 = 32 ∨ (Rect.block (s := S8192x2048) S1024x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x256.size a ≤ S8192x2048.size a
  hwx0_16 : ∀ i : grid0.Coords, EltTy.bits .f32 = 32 ∨ (Rect.block (s := S8192x2048) S1024x256.size (cc0_transform_16 i) (hinb0_16 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_0) S1024x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18_1) S1024x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S8192 : Shape := ⟨1, ![8192]⟩
abbrev S2048x8192 : Shape := ⟨2, ![2048, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S8192x2048, .f32⟩
  | .hbm, ⟨20, _⟩ => ⟨S8192x2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S8192, .f32⟩
  | .hbm, ⟨26, _⟩ => ⟨S2048x8192, .f32⟩
  | .hbm, ⟨27, _⟩ => ⟨S8192x8192, .f32⟩
  | .hbm, ⟨28, _⟩ => ⟨S2048x8192, .f32⟩
  | .hbm, ⟨29, _⟩ => ⟨S8192x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  bcast_S_S8192x2048 : S_.BroadcastsInDim S8192x2048 (![] : Fin 0 → Fin S8192x2048.rank)
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.LstmSpec.lean ====
/-
  One step of an LSTM cell over the extended reals, as ONE function of the nineteen argument arrays, index by index.

  For batch row `b` and hidden unit `j`, each of the four gates has the pre-activation
      pre b j = (∑ₖ x[b,k] · Wx[j,k] + ∑ₖ h0[b,k] · Wh[j,k]) + (bx[j] + bh[j]),
  grouped exactly so: the two contractions are added first, the two biases are added to each other first, and the
  bias sum comes last. With σ the logistic function, the cell computes
      i = σ(pre_i),  f = σ(pre_f),  g = tanh(pre_g),  o = σ(pre_o),
      c[b,j] = f · c0[b,j] + i · g,        h[b,j] = o · tanh(c[b,j]).
  No law of arithmetic is used anywhere below beyond this grouping, so nothing here asks the entries to be finite.
-/
import Idealize.ShloMosaic.PureOps.Ideal
import Idealize.ShloMosaic.Lib.ValueIdx

noncomputable section

namespace LstmCell

open Idealize.ShloMosaic Idealize.ShloMosaic.ValueIdx

/-- An `[r, c]` array of extended reals. -/
abbrev Mat (r c : Nat) : Type := (⟨2, ![r, c]⟩ : Shape).Idx → EReal
/-- An `[n]` array of extended reals. -/
abbrev Row (n : Nat) : Type := (⟨1, ![n]⟩ : Shape).Idx → EReal

/-- The nineteen arguments, in the order both programs take them: the input, the previous hidden and cell states, and
    per gate (input, forget, cell, output) the input weights with their bias and the hidden weights with theirs. -/
structure Args where
  x : Mat 8192 2048
  h0 : Mat 8192 2048
  c0 : Mat 8192 2048
  Wii : Mat 2048 2048
  bIi : Row 2048
  Whi : Mat 2048 2048
  bHi : Row 2048
  Wif : Mat 2048 2048
  bIf : Row 2048
  Whf : Mat 2048 2048
  bHf : Row 2048
  Wig : Mat 2048 2048
  bIg : Row 2048
  Whg : Mat 2048 2048
  bHg : Row 2048
  Wio : Mat 2048 2048
  bIo : Row 2048
  Who : Mat 2048 2048
  bHo : Row 2048

/-- One gate's pre-activation at batch row `b` and hidden unit `j`: row `b` of `x` against row `j` of `wx`, plus row `b`
    of `h` against row `j` of `wh`, plus the sum of the two biases at `j`. -/
def pre (x h : Mat 8192 2048) (wx wh : Mat 2048 2048) (bx bh : Row 2048) (b : Fin 8192) (j : Fin 2048) : EReal :=
  ((∑ k : Fin 2048, x (ix2 b k) * wx (ix2 j k)) + ∑ k : Fin 2048, h (ix2 b k) * wh (ix2 j k)) + (bx (ix1 j) + bh (ix1 j))

namespace Args

variable (a : Args)

/-- The input gate. -/
def gateI (b : Fin 8192) (j : Fin 2048) : EReal := Ideal.logistic (pre a.x a.h0 a.Wii a.Whi a.bIi a.bHi b j)
/-- The forget gate. -/
def gateF (b : Fin 8192) (j : Fin 2048) : EReal := Ideal.logistic (pre a.x a.h0 a.Wif a.Whf a.bIf a.bHf b j)
/-- The candidate cell value. -/
def gateG (b : Fin 8192) (j : Fin 2048) : EReal := Ideal.tanh (pre a.x a.h0 a.Wig a.Whg a.bIg a.bHg b j)
/-- The output gate. -/
def gateO (b : Fin 8192) (j : Fin 2048) : EReal := Ideal.logistic (pre a.x a.h0 a.Wio a.Who a.bIo a.bHo b j)

/-- The new cell state: what the forget gate keeps of the old one plus what the input gate admits of the candidate. -/
def cellC : Mat 8192 2048 := fun i => a.gateF (i 0) (i 1) * a.c0 i + a.gateI (i 0) (i 1) * a.gateG (i 0) (i 1)

/-- The new hidden state: the output gate's share of the squashed new cell state. -/
def cellH : Mat 8192 2048 := fun i => a.gateO (i 0) (i 1) * Ideal.tanh (a.cellC i)

theorem cellC_ix2 (b : Fin 8192) (j : Fin 2048) :
    a.cellC (ix2 b j) = a.gateF b j * a.c0 (ix2 b j) + a.gateI b j * a.gateG b j := rfl

theorem cellH_ix2 (b : Fin 8192) (j : Fin 2048) :
    a.cellH (ix2 b j) = a.gateO b j * Ideal.tanh (a.cellC (ix2 b j)) := rfl

end Args

end LstmCell

end
-- ==== Proof.KernelBlock.lean ====
/-
  What one grid point of the kernel computes, read entry by entry.

  At a grid point the body holds a `[1024, 2048]` block of `x` and one of `h0`, a `[1024, 256]` block of `c0`, for each
  gate a `[256, 2048]` block of its input weights and one of its hidden weights, and a `[1, 256]` row of its summed bias.
  Each matrix product contracts the LAST axis of both operands (rows of the weights are output units), into a zero
  accumulator, so entry `(p, q)` of a product is `∑ₖ left[p,k] · right[q,k]`. A gate's pre-activation at `(p, q)` is the
  sum of its two products plus the bias row at `q`; the block of the new cell state is `σ(f)·c0 + σ(i)·tanh(g)` and the
  block of the new hidden state `σ(o)·tanh` of that, entry by entry.
-/
import proofs.«107104_j57990648430624_1_alg».proof.Proof.Gen.KernelIdeal.Frame
import proofs.«107104_j57990648430624_1_alg».proof.Proof.LstmSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.LstmBlock

open Cert.KernelIdeal Cert.KernelIdeal.Gen Idealize.ShloMosaic Idealize.ShloMosaic.ValueIdx

/-! ## The matrix product at an entry -/

theorem lhs_axis0 (i : S1024x256.Idx) (q : dot_S1024x2048_S256x2048_S1024x256_1_1_0_0_n_n.contr.Idx) :
    (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem lhs_axis1 (i : S1024x256.Idx) (q : dot_S1024x2048_S256x2048_S1024x256_1_1_0_0_n_n.contr.Idx) :
    (dot_S1024x2048_S256x2048_S1024x256_1_1_0_0_n_n.lhsIdx i q 1).val = (q ⟨0, by decide⟩).val :=
  dot_S1024x2048_S256x2048_S1024x256_1_1_0_0_n_n.lhsIdx_val_of_single rfl i q
theorem rhs_axis0 (i : S1024x256.Idx) (q : dot_S1024x2048_S256x2048_S1024x256_1_1_0_0_n_n.contr.Idx) :
    (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem rhs_axis1 (i : S1024x256.Idx) (q : dot_S1024x2048_S256x2048_S1024x256_1_1_0_0_n_n.contr.Idx) :
    (dot_S1024x2048_S256x2048_S1024x256_1_1_0_0_n_n.rhsIdx i q 1).val = (q ⟨0, by decide⟩).val :=
  dot_S1024x2048_S256x2048_S1024x256_1_1_0_0_n_n.rhsIdx_val_of_single rfl i q

/-- Entry `(p, q)` of a block product into the zero accumulator: row `p` of the left block against row `q` of the right. -/
theorem matmul_at (l : FVec Ideal S1024x2048 .bf16) (r : FVec Ideal S256x2048 .bf16) (p : Fin 1024) (q : Fin 256) :
    matmul dot_S1024x2048_S256x2048_S1024x256_1_1_0_0_n_n none l r (constant (F := Ideal) S1024x256 .f32 0x00000000#32) (ix2 p q)
      = ∑ k : Fin 2048, l (ix2 p k) * r (ix2 q k) := by
  show FloatOps.matmul dot_S1024x2048_S256x2048_S1024x256_1_1_0_0_n_n none l r (constant (F := Ideal) S1024x256 .f32 0x00000000#32) (ix2 p q) = _
  rw [Ideal.matmul_constant_zero_apply, ← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 p q) ((contrEquiv1 dot_S1024x2048_S256x2048_S1024x256_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S256x2048_S1024x256_1_1_0_0_n_n.rhsIdx (ix2 p q) ((contrEquiv1 dot_S1024x2048_S256x2048_S1024x256_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-! ## One gate's pre-activation at an entry -/

/-- A gate's pre-activation from the point's blocks: the two products added, then the bias row. -/
def blockPre (xb hb : FVec Ideal S1024x2048 .bf16) (wx wh : FVec Ideal S256x2048 .bf16) (bb : FVec Ideal S1x256 .f32)
    (p : Fin 1024) (q : Fin 256) : EReal :=
  ((∑ k : Fin 2048, xb (ix2 p k) * wx (ix2 q k)) + ∑ k : Fin 2048, hb (ix2 p k) * wh (ix2 q k)) + bb (ix2 (0 : Fin 1) q)

/-- The body's text for a pre-activation — both operands of each product through an identity shape cast, the bias row
    broadcast down the 1024 rows — read at `(p, q)`. -/
theorem pre_at (xb hb : FVec Ideal S1024x2048 .bf16) (wx wh : FVec Ideal S256x2048 .bf16) (bb : FVec Ideal S1x256 .f32)
    (p : Fin 1024) (q : Fin 256) :
    addf (addf
        (matmul dot_S1024x2048_S256x2048_S1024x256_1_1_0_0_n_n none (shapeCast S1024x2048 xb shapeCasts_S1024x2048_S1024x2048) (shapeCast S256x2048 wx shapeCasts_S256x2048_S256x2048) (constant (F := Ideal) S1024x256 .f32 0x00000000#32))
        (matmul dot_S1024x2048_S256x2048_S1024x256_1_1_0_0_n_n none (shapeCast S1024x2048 hb shapeCasts_S1024x2048_S1024x2048) (shapeCast S256x2048 wh shapeCasts_S256x2048_S256x2048) (constant (F := Ideal) S1024x256 .f32 0x00000000#32)))
      (broadcastTo S1024x256 (shapeCast S1x256 bb shapeCasts_S1x256_S1x256) broadcasts_S1x256_S1024x256) (ix2 p q)
      = blockPre xb hb wx wh bb p q := by
  rw [addf_apply, addf_apply, matmul_at, matmul_at, broadcastTo_1b_ab_apply]
  simp only [shapeCast_self]
  rfl

/-! ## The two output blocks at an entry -/

theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

theorem hz : (![0, 0] : Fin 2 → Nat) = fun _ => 0 := funext fun a => by fin_cases a <;> rfl

/-- The new cell state at `(p, q)` from the point's blocks: the forget gate (weights `x4`, `x8`, bias `x12`) times the old
    cell state, plus the input gate (`x3`, `x7`, `x11`) times the candidate (`x5`, `x9`, `x13`). -/
def blockC (x0 x1 : Vec Ideal S1024x2048 .bf16) (x2 : Vec Ideal S1024x256 .f32) (x3 x4 x5 x6 x7 x8 x9 x10 : Vec Ideal S256x2048 .bf16) (x11 x12 x13 x14 : Vec Ideal S1x256 .f32) (p : Fin 1024) (q : Fin 256) : EReal :=
  Ideal.logistic (blockPre x0 x1 x4 x8 x12 p q) * x2 (ix2 p q)
    + Ideal.logistic (blockPre x0 x1 x3 x7 x11 p q) * Ideal.tanh (blockPre x0 x1 x5 x9 x13 p q)

/-- The new hidden state at `(p, q)`: the output gate (`x6`, `x10`, `x14`) times the squashed new cell state. -/
def blockH (x0 x1 : Vec Ideal S1024x2048 .bf16) (x2 : Vec Ideal S1024x256 .f32) (x3 x4 x5 x6 x7 x8 x9 x10 : Vec Ideal S256x2048 .bf16) (x11 x12 x13 x14 : Vec Ideal S1x256 .f32) (p : Fin 1024) (q : Fin 256) : EReal :=
  Ideal.logistic (blockPre x0 x1 x6 x10 x14 p q) * Ideal.tanh (blockC x0 x1 x2 x3 x4 x5 x6 x7 x8 x9 x10 x11 x12 x13 x14 p q)

/-- The value the body stores as the new cell state, at `(p, q)`. -/
theorem payC_at (x0 x1 : Vec Ideal S1024x2048 .bf16) (x2 : Vec Ideal S1024x256 .f32) (x3 x4 x5 x6 x7 x8 x9 x10 : Vec Ideal S256x2048 .bf16) (x11 x12 x13 x14 : Vec Ideal S1x256 .f32) (p : Fin 1024) (q : Fin 256) :
    k0_pay1 (k0_pay4 x1) x2 (k0_pay5 x0 x1 x3 x7 x11) (k0_pay6 x0 x1 x4 x8 x12) (k0_pay7 x0 x5) x9 x13 (ix2 p q)
      = blockC x0 x1 x2 x3 x4 x5 x6 x7 x8 x9 x10 x11 x12 x13 x14 p q := by
  unfold k0_pay1 k0_pay5 k0_pay6 k0_pay7 k0_pay3 k0_pay4
  rw [addf_apply, mulf_apply, mulf_apply, logistic_at, logistic_at, tanh_at, pre_at, pre_at, pre_at]
  rfl

/-- The block the body leaves for the new cell state, at `(p, q)`. -/
theorem outC_at (x0 x1 : Vec Ideal S1024x2048 .bf16) (x2 : Vec Ideal S1024x256 .f32) (x3 x4 x5 x6 x7 x8 x9 x10 : Vec Ideal S256x2048 .bf16) (x11 x12 x13 x14 : Vec Ideal S1x256 .f32) (p : Fin 1024) (q : Fin 256) :
    out0_16 x0 x1 x2 x3 x4 x5 x6 x7 x8 x9 x10 x11 x12 x13 x14 (ix2 p q) = blockC x0 x1 x2 x3 x4 x5 x6 x7 x8 x9 x10 x11 x12 x13 x14 p q := by
  unfold out0_16
  rw [View.canon_unit_zero hz]
  simp only [View.ld_unit_zero (S := S1024x2048) hz, View.ld_unit_zero (S := S1024x256) hz, View.ld_unit_zero (S := S256x2048) hz, View.ld_unit_zero (S := S1x256) hz]
  exact payC_at x0 x1 x2 x3 x4 x5 x6 x7 x8 x9 x10 x11 x12 x13 x14 p q

/-- The block the body leaves for the new hidden state, at `(p, q)`. -/
theorem outH_at (x0 x1 : Vec Ideal S1024x2048 .bf16) (x2 : Vec Ideal S1024x256 .f32) (x3 x4 x5 x6 x7 x8 x9 x10 : Vec Ideal S256x2048 .bf16) (x11 x12 x13 x14 : Vec Ideal S1x256 .f32) (p : Fin 1024) (q : Fin 256) :
    out0_15 x0 x1 x2 x3 x4 x5 x6 x7 x8 x9 x10 x11 x12 x13 x14 (ix2 p q) = blockH x0 x1 x2 x3 x4 x5 x6 x7 x8 x9 x10 x11 x12 x13 x14 p q := by
  unfold out0_15
  rw [View.canon_unit_zero hz]
  simp only [View.ld_unit_zero (S := S1024x2048) hz, View.ld_unit_zero (S := S1024x256) hz, View.ld_unit_zero (S := S256x2048) hz, View.ld_unit_zero (S := S1x256) hz]
  unfold k0_pay2
  rw [mulf_apply, logistic_at, tanh_at, payC_at]
  unfold k0_pay3 k0_pay4
  rw [pre_at]
  rfl

end Cert.KernelIdeal.LstmBlock

end
-- ==== Proof.KernelArrays.lean ====
/-
  From the grid points' blocks to the two result arrays.

  The grid is 8 × 8: point `(i, j)` works on batch rows `1024·i …` and hidden units `256·j …`. Its blocks of `x` and `h0`
  are rows `1024·i …` (all 2048 columns); its blocks of the eight weight matrices are rows `256·j …` (output units are
  rows of the weights); its bias rows are columns `256·j …`; its blocks of `c0` and of both results are the
  `[1024, 256]` tile at `(i, j)`. So entry `(p, q)` of what the point writes back is the cell at batch row `1024·i + p`
  and hidden unit `256·j + q`, and the 64 tiles cover both result arrays.

  The arrays the region finds: `x`, `h0` and the weights pass through a change of float format, the identity on extended
  reals; each gate's two biases are added and laid out as one `[1, 2048]` row.
-/
import proofs.«107104_j57990648430624_1_alg».proof.Proof.Gen.KernelIdeal.Value
import proofs.«107104_j57990648430624_1_alg».proof.Proof.KernelBlock
import Idealize.ShloMosaic.Lib.StableHlo.Run

set_option maxRecDepth 16384

noncomputable section

namespace Cert.KernelIdeal.LstmArrays

open Cert.KernelIdeal Cert.KernelIdeal.Gen Cert.KernelIdeal.LstmBlock Idealize.ShloMosaic Idealize.ShloMosaic.TcCoe
open Idealize.ShloMosaic.ValueIdx Idealize.ShloMosaic.StableHlo Idealize.SL.Sem LstmCell
open Idealize.ShloMosaic.Pipeline (Dat)

variable (m : (ℓ : Loc nD τ sig) → Buf (Elt Ideal) ℓ) (ρ : Dev nD → PrngReg)

/-- The cell's nineteen arguments as core `c` holds them at launch. -/
def argsOf (c : Dev nD) : Args where
  x := m ((c : Thread nD τ).loc main_arg0)
  h0 := m ((c : Thread nD τ).loc main_arg1)
  c0 := m ((c : Thread nD τ).loc main_arg2)
  Wii := m ((c : Thread nD τ).loc main_arg3)
  bIi := m ((c : Thread nD τ).loc main_arg4)
  Whi := m ((c : Thread nD τ).loc main_arg5)
  bHi := m ((c : Thread nD τ).loc main_arg6)
  Wif := m ((c : Thread nD τ).loc main_arg7)
  bIf := m ((c : Thread nD τ).loc main_arg8)
  Whf := m ((c : Thread nD τ).loc main_arg9)
  bHf := m ((c : Thread nD τ).loc main_arg10)
  Wig := m ((c : Thread nD τ).loc main_arg11)
  bIg := m ((c : Thread nD τ).loc main_arg12)
  Whg := m ((c : Thread nD τ).loc main_arg13)
  bHg := m ((c : Thread nD τ).loc main_arg14)
  Wio := m ((c : Thread nD τ).loc main_arg15)
  bIo := m ((c : Thread nD τ).loc main_arg16)
  Who := m ((c : Thread nD τ).loc main_arg17)
  bHo := m ((c : Thread nD τ).loc main_arg18)

/-! ## The arrays the region finds -/

/-- The format change that writes `main_v0` is the identity on extended reals. -/
theorem V_v0 (c : Dev nD) : (V m c main_v0 : S8192x2048.Idx → EReal) = (argsOf m c).x := by
  dsimp only [V, hostOps0]; after_results; rfl
/-- The format change that writes `main_v1` is the identity on extended reals. -/
theorem V_v1 (c : Dev nD) : (V m c main_v1 : S8192x2048.Idx → EReal) = (argsOf m c).h0 := by
  dsimp only [V, hostOps0]; after_results; rfl
/-- The format change that writes `main_v2` is the identity on extended reals. -/
theorem V_v2 (c : Dev nD) : (V m c main_v2 : S2048x2048.Idx → EReal) = (argsOf m c).Wii := by
  dsimp only [V, hostOps0]; after_results; rfl
/-- The format change that writes `main_v3` is the identity on extended reals. -/
theorem V_v3 (c : Dev nD) : (V m c main_v3 : S2048x2048.Idx → EReal) = (argsOf m c).Wif := by
  dsimp only [V, hostOps0]; after_results; rfl
/-- The format change that writes `main_v4` is the identity on extended reals. -/
theorem V_v4 (c : Dev nD) : (V m c main_v4 : S2048x2048.Idx → EReal) = (argsOf m c).Wig := by
  dsimp only [V, hostOps0]; after_results; rfl
/-- The format change that writes `main_v5` is the identity on extended reals. -/
theorem V_v5 (c : Dev nD) : (V m c main_v5 : S2048x2048.Idx → EReal) = (argsOf m c).Wio := by
  dsimp only [V, hostOps0]; after_results; rfl
/-- The format change that writes `main_v6` is the identity on extended reals. -/
theorem V_v6 (c : Dev nD) : (V m c main_v6 : S2048x2048.Idx → EReal) = (argsOf m c).Whi := by
  dsimp only [V, hostOps0]; after_results; rfl
/-- The format change that writes `main_v7` is the identity on extended reals. -/
theorem V_v7 (c : Dev nD) : (V m c main_v7 : S2048x2048.Idx → EReal) = (argsOf m c).Whf := by
  dsimp only [V, hostOps0]; after_results; rfl
/-- The format change that writes `main_v8` is the identity on extended reals. -/
theorem V_v8 (c : Dev nD) : (V m c main_v8 : S2048x2048.Idx → EReal) = (argsOf m c).Whg := by
  dsimp only [V, hostOps0]; after_results; rfl
/-- The format change that writes `main_v9` is the identity on extended reals. -/
theorem V_v9 (c : Dev nD) : (V m c main_v9 : S2048x2048.Idx → EReal) = (argsOf m c).Who := by
  dsimp only [V, hostOps0]; after_results; rfl

theorem V_v11 (c : Dev nD) : (V m c main_v11 : S1x2048.Idx → EReal)
    = shapeCast S1x2048 (addf (F := Ideal) (s := S2048) (φ := .f32) (argsOf m c).bIi (argsOf m c).bHi) shapeCasts_S2048_S1x2048 := by
  dsimp only [V, hostOps0]; after_results; rfl
/-- The summed bias laid out as one row: its entry at column `j` is the two biases' sum at `j`. -/
theorem V_v11_at (c : Dev nD) (u : Fin 1) (j : Fin 2048) :
    (V m c main_v11 : S1x2048.Idx → EReal) (ix2 u j) = (argsOf m c).bIi (ix1 j) + (argsOf m c).bHi (ix1 j) := by
  rw [V_v11, shapeCast_a_1a_apply, addf_apply]
theorem V_v13 (c : Dev nD) : (V m c main_v13 : S1x2048.Idx → EReal)
    = shapeCast S1x2048 (addf (F := Ideal) (s := S2048) (φ := .f32) (argsOf m c).bIf (argsOf m c).bHf) shapeCasts_S2048_S1x2048 := by
  dsimp only [V, hostOps0]; after_results; rfl
/-- The summed bias laid out as one row: its entry at column `j` is the two biases' sum at `j`. -/
theorem V_v13_at (c : Dev nD) (u : Fin 1) (j : Fin 2048) :
    (V m c main_v13 : S1x2048.Idx → EReal) (ix2 u j) = (argsOf m c).bIf (ix1 j) + (argsOf m c).bHf (ix1 j) := by
  rw [V_v13, shapeCast_a_1a_apply, addf_apply]
theorem V_v15 (c : Dev nD) : (V m c main_v15 : S1x2048.Idx → EReal)
    = shapeCast S1x2048 (addf (F := Ideal) (s := S2048) (φ := .f32) (argsOf m c).bIg (argsOf m c).bHg) shapeCasts_S2048_S1x2048 := by
  dsimp only [V, hostOps0]; after_results; rfl
/-- The summed bias laid out as one row: its entry at column `j` is the two biases' sum at `j`. -/
theorem V_v15_at (c : Dev nD) (u : Fin 1) (j : Fin 2048) :
    (V m c main_v15 : S1x2048.Idx → EReal) (ix2 u j) = (argsOf m c).bIg (ix1 j) + (argsOf m c).bHg (ix1 j) := by
  rw [V_v15, shapeCast_a_1a_apply, addf_apply]
theorem V_v17 (c : Dev nD) : (V m c main_v17 : S1x2048.Idx → EReal)
    = shapeCast S1x2048 (addf (F := Ideal) (s := S2048) (φ := .f32) (argsOf m c).bIo (argsOf m c).bHo) shapeCasts_S2048_S1x2048 := by
  dsimp only [V, hostOps0]; after_results; rfl
/-- The summed bias laid out as one row: its entry at column `j` is the two biases' sum at `j`. -/
theorem V_v17_at (c : Dev nD) (u : Fin 1) (j : Fin 2048) :
    (V m c main_v17 : S1x2048.Idx → EReal) (ix2 u j) = (argsOf m c).bIo (ix1 j) + (argsOf m c).bHo (ix1 j) := by
  rw [V_v17, shapeCast_a_1a_apply, addf_apply]

theorem V_c0 (c : Dev nD) : (V m c main_arg2 : S8192x2048.Idx → EReal) = (argsOf m c).c0 := V_main_arg2 m c

/-! ## The cell from one point's blocks -/

/-- If the blocks' entries the body reads at `(p, q)` are the arrays' entries at batch row `R` and hidden unit `J` — rows
    `p` of the `x` and `h0` blocks rows `R` of the arrays, rows `q` of the weight blocks rows `J` of the weights, the bias
    rows at `q` the bias sums at `J` —, then the block values at `(p, q)` are the cell at `(R, J)`. -/
theorem cell_of_blocks (a : Args) (x0 x1 : Vec Ideal S1024x2048 .bf16) (x2 : Vec Ideal S1024x256 .f32) (x3 x4 x5 x6 x7 x8 x9 x10 : Vec Ideal S256x2048 .bf16) (x11 x12 x13 x14 : Vec Ideal S1x256 .f32) (p : Fin 1024) (q : Fin 256) (R : Fin 8192) (J : Fin 2048)
    (h0 : ∀ k, x0 (ix2 p k) = a.x (ix2 R k)) (h1 : ∀ k, x1 (ix2 p k) = a.h0 (ix2 R k)) (h2 : x2 (ix2 p q) = a.c0 (ix2 R J))
    (h3 : ∀ k, x3 (ix2 q k) = a.Wii (ix2 J k)) (h4 : ∀ k, x4 (ix2 q k) = a.Wif (ix2 J k)) (h5 : ∀ k, x5 (ix2 q k) = a.Wig (ix2 J k)) (h6 : ∀ k, x6 (ix2 q k) = a.Wio (ix2 J k))
    (h7 : ∀ k, x7 (ix2 q k) = a.Whi (ix2 J k)) (h8 : ∀ k, x8 (ix2 q k) = a.Whf (ix2 J k)) (h9 : ∀ k, x9 (ix2 q k) = a.Whg (ix2 J k)) (h10 : ∀ k, x10 (ix2 q k) = a.Who (ix2 J k))
    (h11 : x11 (ix2 (0 : Fin 1) q) = a.bIi (ix1 J) + a.bHi (ix1 J)) (h12 : x12 (ix2 (0 : Fin 1) q) = a.bIf (ix1 J) + a.bHf (ix1 J))
    (h13 : x13 (ix2 (0 : Fin 1) q) = a.bIg (ix1 J) + a.bHg (ix1 J)) (h14 : x14 (ix2 (0 : Fin 1) q) = a.bIo (ix1 J) + a.bHo (ix1 J)) :
    blockC x0 x1 x2 x3 x4 x5 x6 x7 x8 x9 x10 x11 x12 x13 x14 p q = a.cellC (ix2 R J) ∧ blockH x0 x1 x2 x3 x4 x5 x6 x7 x8 x9 x10 x11 x12 x13 x14 p q = a.cellH (ix2 R J) := by
  have hC : blockC x0 x1 x2 x3 x4 x5 x6 x7 x8 x9 x10 x11 x12 x13 x14 p q = a.cellC (ix2 R J) := by
    rw [Args.cellC_ix2]
    unfold blockC blockPre Args.gateF Args.gateI Args.gateG pre
    simp only [h0, h1, h2, h3, h4, h5, h7, h8, h9, h11, h12, h13]
  refine ⟨hC, ?_⟩
  rw [Args.cellH_ix2]
  unfold blockH
  rw [hC]
  unfold blockPre Args.gateO pre
  simp only [h0, h1, h6, h10, h14]

/-! ## The index maps, decided over the 64 grid points -/

theorem idx_16 : ∀ t : Fin cfg0.N, win0_16.index t (0 : Fin 2) < 8 ∧ win0_16.index t (1 : Fin 2) < 8 :=
  (by decide +kernel : ∀ t : Fin grid0.N, win0_16.index t (0 : Fin 2) < 8 ∧ win0_16.index t (1 : Fin 2) < 8)
theorem idx_0 : ∀ t : Fin cfg0.N, win0_0.index t (0 : Fin 2) = win0_16.index t (0 : Fin 2) ∧ win0_0.index t (1 : Fin 2) = 0 :=
  (by decide +kernel : ∀ t : Fin grid0.N, win0_0.index t (0 : Fin 2) = win0_16.index t (0 : Fin 2) ∧ win0_0.index t (1 : Fin 2) = 0)
theorem idx_1 : ∀ t : Fin cfg0.N, win0_1.index t (0 : Fin 2) = win0_16.index t (0 : Fin 2) ∧ win0_1.index t (1 : Fin 2) = 0 :=
  (by decide +kernel : ∀ t : Fin grid0.N, win0_1.index t (0 : Fin 2) = win0_16.index t (0 : Fin 2) ∧ win0_1.index t (1 : Fin 2) = 0)
theorem idx_2 : ∀ t : Fin cfg0.N, win0_2.index t (0 : Fin 2) = win0_16.index t (0 : Fin 2) ∧ win0_2.index t (1 : Fin 2) = win0_16.index t (1 : Fin 2) :=
  (by decide +kernel : ∀ t : Fin grid0.N, win0_2.index t (0 : Fin 2) = win0_16.index t (0 : Fin 2) ∧ win0_2.index t (1 : Fin 2) = win0_16.index t (1 : Fin 2))
theorem idx_3 : ∀ t : Fin cfg0.N, win0_3.index t (0 : Fin 2) = win0_16.index t (1 : Fin 2) ∧ win0_3.index t (1 : Fin 2) = 0 :=
  (by decide +kernel : ∀ t : Fin grid0.N, win0_3.index t (0 : Fin 2) = win0_16.index t (1 : Fin 2) ∧ win0_3.index t (1 : Fin 2) = 0)
theorem idx_4 : ∀ t : Fin cfg0.N, win0_4.index t (0 : Fin 2) = win0_16.index t (1 : Fin 2) ∧ win0_4.index t (1 : Fin 2) = 0 :=
  (by decide +kernel : ∀ t : Fin grid0.N, win0_4.index t (0 : Fin 2) = win0_16.index t (1 : Fin 2) ∧ win0_4.index t (1 : Fin 2) = 0)
theorem idx_5 : ∀ t : Fin cfg0.N, win0_5.index t (0 : Fin 2) = win0_16.index t (1 : Fin 2) ∧ win0_5.index t (1 : Fin 2) = 0 :=
  (by decide +kernel : ∀ t : Fin grid0.N, win0_5.index t (0 : Fin 2) = win0_16.index t (1 : Fin 2) ∧ win0_5.index t (1 : Fin 2) = 0)
theorem idx_6 : ∀ t : Fin cfg0.N, win0_6.index t (0 : Fin 2) = win0_16.index t (1 : Fin 2) ∧ win0_6.index t (1 : Fin 2) = 0 :=
  (by decide +kernel : ∀ t : Fin grid0.N, win0_6.index t (0 : Fin 2) = win0_16.index t (1 : Fin 2) ∧ win0_6.index t (1 : Fin 2) = 0)
theorem idx_7 : ∀ t : Fin cfg0.N, win0_7.index t (0 : Fin 2) = win0_16.index t (1 : Fin 2) ∧ win0_7.index t (1 : Fin 2) = 0 :=
  (by decide +kernel : ∀ t : Fin grid0.N, win0_7.index t (0 : Fin 2) = win0_16.index t (1 : Fin 2) ∧ win0_7.index t (1 : Fin 2) = 0)
theorem idx_8 : ∀ t : Fin cfg0.N, win0_8.index t (0 : Fin 2) = win0_16.index t (1 : Fin 2) ∧ win0_8.index t (1 : Fin 2) = 0 :=
  (by decide +kernel : ∀ t : Fin grid0.N, win0_8.index t (0 : Fin 2) = win0_16.index t (1 : Fin 2) ∧ win0_8.index t (1 : Fin 2) = 0)
theorem idx_9 : ∀ t : Fin cfg0.N, win0_9.index t (0 : Fin 2) = win0_16.index t (1 : Fin 2) ∧ win0_9.index t (1 : Fin 2) = 0 :=
  (by decide +kernel : ∀ t : Fin grid0.N, win0_9.index t (0 : Fin 2) = win0_16.index t (1 : Fin 2) ∧ win0_9.index t (1 : Fin 2) = 0)
theorem idx_10 : ∀ t : Fin cfg0.N, win0_10.index t (0 : Fin 2) = win0_16.index t (1 : Fin 2) ∧ win0_10.index t (1 : Fin 2) = 0 :=
  (by decide +kernel : ∀ t : Fin grid0.N, win0_10.index t (0 : Fin 2) = win0_16.index t (1 : Fin 2) ∧ win0_10.index t (1 : Fin 2) = 0)
theorem idx_11 : ∀ t : Fin cfg0.N, win0_11.index t (0 : Fin 2) = 0 ∧ win0_11.index t (1 : Fin 2) = win0_16.index t (1 : Fin 2) :=
  (by decide +kernel : ∀ t : Fin grid0.N, win0_11.index t (0 : Fin 2) = 0 ∧ win0_11.index t (1 : Fin 2) = win0_16.index t (1 : Fin 2))
theorem idx_12 : ∀ t : Fin cfg0.N, win0_12.index t (0 : Fin 2) = 0 ∧ win0_12.index t (1 : Fin 2) = win0_16.index t (1 : Fin 2) :=
  (by decide +kernel : ∀ t : Fin grid0.N, win0_12.index t (0 : Fin 2) = 0 ∧ win0_12.index t (1 : Fin 2) = win0_16.index t (1 : Fin 2))
theorem idx_13 : ∀ t : Fin cfg0.N, win0_13.index t (0 : Fin 2) = 0 ∧ win0_13.index t (1 : Fin 2) = win0_16.index t (1 : Fin 2) :=
  (by decide +kernel : ∀ t : Fin grid0.N, win0_13.index t (0 : Fin 2) = 0 ∧ win0_13.index t (1 : Fin 2) = win0_16.index t (1 : Fin 2))
theorem idx_14 : ∀ t : Fin cfg0.N, win0_14.index t (0 : Fin 2) = 0 ∧ win0_14.index t (1 : Fin 2) = win0_16.index t (1 : Fin 2) :=
  (by decide +kernel : ∀ t : Fin grid0.N, win0_14.index t (0 : Fin 2) = 0 ∧ win0_14.index t (1 : Fin 2) = win0_16.index t (1 : Fin 2))
theorem idx_15 : ∀ t : Fin cfg0.N, win0_15.index t (0 : Fin 2) = win0_16.index t (0 : Fin 2) ∧ win0_15.index t (1 : Fin 2) = win0_16.index t (1 : Fin 2) :=
  (by decide +kernel : ∀ t : Fin grid0.N, win0_15.index t (0 : Fin 2) = win0_16.index t (0 : Fin 2) ∧ win0_15.index t (1 : Fin 2) = win0_16.index t (1 : Fin 2))

/-- The batch row entry `p` of point `t`'s tile lies on. -/
def gRow (t : Fin cfg0.N) (p : Fin 1024) : Fin 8192 :=
  ⟨win0_16.index t (0 : Fin 2) * 1024 + p.val, by have := (idx_16 t).1; have := p.isLt; omega⟩
/-- The hidden unit entry `q` of point `t`'s tile lies on. -/
def gCol (t : Fin cfg0.N) (q : Fin 256) : Fin 2048 :=
  ⟨win0_16.index t (1 : Fin 2) * 256 + q.val, by have := (idx_16 t).2; have := q.isLt; omega⟩

theorem emb_16 (t : Fin cfg0.N) (p : Fin 1024) (q : Fin 256) :
    ((cfg0.win 16).blk t).view.emb (ix2 p q) = ix2 (gRow t p) (gCol t q) := funext fun d => Fin.ext (by
  match d with
  | ⟨0, _⟩ => show win0_16.index t (0 : Fin 2) * 1024 + 1 * p.val = win0_16.index t (0 : Fin 2) * 1024 + p.val; omega
  | ⟨1, _⟩ => show win0_16.index t (1 : Fin 2) * 256 + 1 * q.val = win0_16.index t (1 : Fin 2) * 256 + q.val; omega)
theorem emb_15 (t : Fin cfg0.N) (p : Fin 1024) (q : Fin 256) :
    ((cfg0.win 15).blk t).view.emb (ix2 p q) = ix2 (gRow t p) (gCol t q) := funext fun d => Fin.ext (by
  obtain ⟨e0, e1⟩ := idx_15 t
  match d with
  | ⟨0, _⟩ => show win0_15.index t (0 : Fin 2) * 1024 + 1 * p.val = win0_16.index t (0 : Fin 2) * 1024 + p.val; omega
  | ⟨1, _⟩ => show win0_15.index t (1 : Fin 2) * 256 + 1 * q.val = win0_16.index t (1 : Fin 2) * 256 + q.val; omega)

/-! ## Each window's block, read as entries of the arguments -/

theorem rd_0 (c : Dev nD) (t : Fin cfg0.N) (p : Fin 1024) (k : Fin 2048) :
    iblk m c 0 t (ix2 p k) = (argsOf m c).x (ix2 (gRow t p) k) := by
  show V m c main_v0 (((cfg0.win 0).blk t).view.emb (ix2 p k)) = _
  rw [V_v0]
  refine congrArg (argsOf m c).x (funext fun d => Fin.ext ?_)
  obtain ⟨e0, e1⟩ := idx_0 t
  match d with
  | ⟨0, _⟩ => show win0_0.index t (0 : Fin 2) * 1024 + 1 * p.val = win0_16.index t (0 : Fin 2) * 1024 + p.val; omega
  | ⟨1, _⟩ => show win0_0.index t (1 : Fin 2) * 2048 + 1 * k.val = k.val; omega
theorem rd_1 (c : Dev nD) (t : Fin cfg0.N) (p : Fin 1024) (k : Fin 2048) :
    iblk m c 1 t (ix2 p k) = (argsOf m c).h0 (ix2 (gRow t p) k) := by
  show V m c main_v1 (((cfg0.win 1).blk t).view.emb (ix2 p k)) = _
  rw [V_v1]
  refine congrArg (argsOf m c).h0 (funext fun d => Fin.ext ?_)
  obtain ⟨e0, e1⟩ := idx_1 t
  match d with
  | ⟨0, _⟩ => show win0_1.index t (0 : Fin 2) * 1024 + 1 * p.val = win0_16.index t (0 : Fin 2) * 1024 + p.val; omega
  | ⟨1, _⟩ => show win0_1.index t (1 : Fin 2) * 2048 + 1 * k.val = k.val; omega
theorem rd_2 (c : Dev nD) (t : Fin cfg0.N) (p : Fin 1024) (q : Fin 256) :
    iblk m c 2 t (ix2 p q) = (argsOf m c).c0 (ix2 (gRow t p) (gCol t q)) := by
  show V m c main_arg2 (((cfg0.win 2).blk t).view.emb (ix2 p q)) = _
  rw [V_c0]
  refine congrArg (argsOf m c).c0 (funext fun d => Fin.ext ?_)
  obtain ⟨e0, e1⟩ := idx_2 t
  match d with
  | ⟨0, _⟩ => show win0_2.index t (0 : Fin 2) * 1024 + 1 * p.val = win0_16.index t (0 : Fin 2) * 1024 + p.val; omega
  | ⟨1, _⟩ => show win0_2.index t (1 : Fin 2) * 256 + 1 * q.val = win0_16.index t (1 : Fin 2) * 256 + q.val; omega
theorem rd_3 (c : Dev nD) (t : Fin cfg0.N) (q : Fin 256) (k : Fin 2048) :
    iblk m c 3 t (ix2 q k) = (argsOf m c).Wii (ix2 (gCol t q) k) := by
  show V m c main_v2 (((cfg0.win 3).blk t).view.emb (ix2 q k)) = _
  rw [V_v2]
  refine congrArg (argsOf m c).Wii (funext fun d => Fin.ext ?_)
  obtain ⟨e0, e1⟩ := idx_3 t
  match d with
  | ⟨0, _⟩ => show win0_3.index t (0 : Fin 2) * 256 + 1 * q.val = win0_16.index t (1 : Fin 2) * 256 + q.val; omega
  | ⟨1, _⟩ => show win0_3.index t (1 : Fin 2) * 2048 + 1 * k.val = k.val; omega
theorem rd_4 (c : Dev nD) (t : Fin cfg0.N) (q : Fin 256) (k : Fin 2048) :
    iblk m c 4 t (ix2 q k) = (argsOf m c).Wif (ix2 (gCol t q) k) := by
  show V m c main_v3 (((cfg0.win 4).blk t).view.emb (ix2 q k)) = _
  rw [V_v3]
  refine congrArg (argsOf m c).Wif (funext fun d => Fin.ext ?_)
  obtain ⟨e0, e1⟩ := idx_4 t
  match d with
  | ⟨0, _⟩ => show win0_4.index t (0 : Fin 2) * 256 + 1 * q.val = win0_16.index t (1 : Fin 2) * 256 + q.val; omega
  | ⟨1, _⟩ => show win0_4.index t (1 : Fin 2) * 2048 + 1 * k.val = k.val; omega
theorem rd_5 (c : Dev nD) (t : Fin cfg0.N) (q : Fin 256) (k : Fin 2048) :
    iblk m c 5 t (ix2 q k) = (argsOf m c).Wig (ix2 (gCol t q) k) := by
  show V m c main_v4 (((cfg0.win 5).blk t).view.emb (ix2 q k)) = _
  rw [V_v4]
  refine congrArg (argsOf m c).Wig (funext fun d => Fin.ext ?_)
  obtain ⟨e0, e1⟩ := idx_5 t
  match d with
  | ⟨0, _⟩ => show win0_5.index t (0 : Fin 2) * 256 + 1 * q.val = win0_16.index t (1 : Fin 2) * 256 + q.val; omega
  | ⟨1, _⟩ => show win0_5.index t (1 : Fin 2) * 2048 + 1 * k.val = k.val; omega
theorem rd_6 (c : Dev nD) (t : Fin cfg0.N) (q : Fin 256) (k : Fin 2048) :
    iblk m c 6 t (ix2 q k) = (argsOf m c).Wio (ix2 (gCol t q) k) := by
  show V m c main_v5 (((cfg0.win 6).blk t).view.emb (ix2 q k)) = _
  rw [V_v5]
  refine congrArg (argsOf m c).Wio (funext fun d => Fin.ext ?_)
  obtain ⟨e0, e1⟩ := idx_6 t
  match d with
  | ⟨0, _⟩ => show win0_6.index t (0 : Fin 2) * 256 + 1 * q.val = win0_16.index t (1 : Fin 2) * 256 + q.val; omega
  | ⟨1, _⟩ => show win0_6.index t (1 : Fin 2) * 2048 + 1 * k.val = k.val; omega
theorem rd_7 (c : Dev nD) (t : Fin cfg0.N) (q : Fin 256) (k : Fin 2048) :
    iblk m c 7 t (ix2 q k) = (argsOf m c).Whi (ix2 (gCol t q) k) := by
  show V m c main_v6 (((cfg0.win 7).blk t).view.emb (ix2 q k)) = _
  rw [V_v6]
  refine congrArg (argsOf m c).Whi (funext fun d => Fin.ext ?_)
  obtain ⟨e0, e1⟩ := idx_7 t
  match d with
  | ⟨0, _⟩ => show win0_7.index t (0 : Fin 2) * 256 + 1 * q.val = win0_16.index t (1 : Fin 2) * 256 + q.val; omega
  | ⟨1, _⟩ => show win0_7.index t (1 : Fin 2) * 2048 + 1 * k.val = k.val; omega
theorem rd_8 (c : Dev nD) (t : Fin cfg0.N) (q : Fin 256) (k : Fin 2048) :
    iblk m c 8 t (ix2 q k) = (argsOf m c).Whf (ix2 (gCol t q) k) := by
  show V m c main_v7 (((cfg0.win 8).blk t).view.emb (ix2 q k)) = _
  rw [V_v7]
  refine congrArg (argsOf m c).Whf (funext fun d => Fin.ext ?_)
  obtain ⟨e0, e1⟩ := idx_8 t
  match d with
  | ⟨0, _⟩ => show win0_8.index t (0 : Fin 2) * 256 + 1 * q.val = win0_16.index t (1 : Fin 2) * 256 + q.val; omega
  | ⟨1, _⟩ => show win0_8.index t (1 : Fin 2) * 2048 + 1 * k.val = k.val; omega
theorem rd_9 (c : Dev nD) (t : Fin cfg0.N) (q : Fin 256) (k : Fin 2048) :
    iblk m c 9 t (ix2 q k) = (argsOf m c).Whg (ix2 (gCol t q) k) := by
  show V m c main_v8 (((cfg0.win 9).blk t).view.emb (ix2 q k)) = _
  rw [V_v8]
  refine congrArg (argsOf m c).Whg (funext fun d => Fin.ext ?_)
  obtain ⟨e0, e1⟩ := idx_9 t
  match d with
  | ⟨0, _⟩ => show win0_9.index t (0 : Fin 2) * 256 + 1 * q.val = win0_16.index t (1 : Fin 2) * 256 + q.val; omega
  | ⟨1, _⟩ => show win0_9.index t (1 : Fin 2) * 2048 + 1 * k.val = k.val; omega
theorem rd_10 (c : Dev nD) (t : Fin cfg0.N) (q : Fin 256) (k : Fin 2048) :
    iblk m c 10 t (ix2 q k) = (argsOf m c).Who (ix2 (gCol t q) k) := by
  show V m c main_v9 (((cfg0.win 10).blk t).view.emb (ix2 q k)) = _
  rw [V_v9]
  refine congrArg (argsOf m c).Who (funext fun d => Fin.ext ?_)
  obtain ⟨e0, e1⟩ := idx_10 t
  match d with
  | ⟨0, _⟩ => show win0_10.index t (0 : Fin 2) * 256 + 1 * q.val = win0_16.index t (1 : Fin 2) * 256 + q.val; omega
  | ⟨1, _⟩ => show win0_10.index t (1 : Fin 2) * 2048 + 1 * k.val = k.val; omega
theorem rd_11 (c : Dev nD) (t : Fin cfg0.N) (q : Fin 256) :
    iblk m c 11 t (ix2 (0 : Fin 1) q) = (argsOf m c).bIi (ix1 (gCol t q)) + (argsOf m c).bHi (ix1 (gCol t q)) := by
  show V m c main_v11 (((cfg0.win 11).blk t).view.emb (ix2 (0 : Fin 1) q)) = _
  have e : ((cfg0.win 11).blk t).view.emb (ix2 (0 : Fin 1) q) = ix2 (0 : Fin 1) (gCol t q) := funext fun d => Fin.ext (by
    obtain ⟨e0, e1⟩ := idx_11 t
    match d with
    | ⟨0, _⟩ => show win0_11.index t (0 : Fin 2) * 1 + 1 * 0 = 0; omega
    | ⟨1, _⟩ => show win0_11.index t (1 : Fin 2) * 256 + 1 * q.val = win0_16.index t (1 : Fin 2) * 256 + q.val; omega)
  exact (congrArg _ e).trans (V_v11_at m c 0 (gCol t q))
theorem rd_12 (c : Dev nD) (t : Fin cfg0.N) (q : Fin 256) :
    iblk m c 12 t (ix2 (0 : Fin 1) q) = (argsOf m c).bIf (ix1 (gCol t q)) + (argsOf m c).bHf (ix1 (gCol t q)) := by
  show V m c main_v13 (((cfg0.win 12).blk t).view.emb (ix2 (0 : Fin 1) q)) = _
  have e : ((cfg0.win 12).blk t).view.emb (ix2 (0 : Fin 1) q) = ix2 (0 : Fin 1) (gCol t q) := funext fun d => Fin.ext (by
    obtain ⟨e0, e1⟩ := idx_12 t
    match d with
    | ⟨0, _⟩ => show win0_12.index t (0 : Fin 2) * 1 + 1 * 0 = 0; omega
    | ⟨1, _⟩ => show win0_12.index t (1 : Fin 2) * 256 + 1 * q.val = win0_16.index t (1 : Fin 2) * 256 + q.val; omega)
  exact (congrArg _ e).trans (V_v13_at m c 0 (gCol t q))
theorem rd_13 (c : Dev nD) (t : Fin cfg0.N) (q : Fin 256) :
    iblk m c 13 t (ix2 (0 : Fin 1) q) = (argsOf m c).bIg (ix1 (gCol t q)) + (argsOf m c).bHg (ix1 (gCol t q)) := by
  show V m c main_v15 (((cfg0.win 13).blk t).view.emb (ix2 (0 : Fin 1) q)) = _
  have e : ((cfg0.win 13).blk t).view.emb (ix2 (0 : Fin 1) q) = ix2 (0 : Fin 1) (gCol t q) := funext fun d => Fin.ext (by
    obtain ⟨e0, e1⟩ := idx_13 t
    match d with
    | ⟨0, _⟩ => show win0_13.index t (0 : Fin 2) * 1 + 1 * 0 = 0; omega
    | ⟨1, _⟩ => show win0_13.index t (1 : Fin 2) * 256 + 1 * q.val = win0_16.index t (1 : Fin 2) * 256 + q.val; omega)
  exact (congrArg _ e).trans (V_v15_at m c 0 (gCol t q))
theorem rd_14 (c : Dev nD) (t : Fin cfg0.N) (q : Fin 256) :
    iblk m c 14 t (ix2 (0 : Fin 1) q) = (argsOf m c).bIo (ix1 (gCol t q)) + (argsOf m c).bHo (ix1 (gCol t q)) := by
  show V m c main_v17 (((cfg0.win 14).blk t).view.emb (ix2 (0 : Fin 1) q)) = _
  have e : ((cfg0.win 14).blk t).view.emb (ix2 (0 : Fin 1) q) = ix2 (0 : Fin 1) (gCol t q) := funext fun d => Fin.ext (by
    obtain ⟨e0, e1⟩ := idx_14 t
    match d with
    | ⟨0, _⟩ => show win0_14.index t (0 : Fin 2) * 1 + 1 * 0 = 0; omega
    | ⟨1, _⟩ => show win0_14.index t (1 : Fin 2) * 256 + 1 * q.val = win0_16.index t (1 : Fin 2) * 256 + q.val; omega)
  exact (congrArg _ e).trans (V_v17_at m c 0 (gCol t q))

/-! ## What a grid point writes back -/

/-- Point `t` writes back its tile of the new cell state. -/
theorem flushedC_eq (c : Dev nD) (t : Fin cfg0.N) :
    (dats m 0 c).flushed 16 t = ((cfg0.win 16).blk t).view.read (Elt Ideal) (argsOf m c).cellC := by
  rw [Cert.KernelIdeal.Value.flushed16]
  have key : ∀ (p : Fin 1024) (q : Fin 256), out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = (argsOf m c).cellC (((cfg0.win 16).blk t).view.emb (ix2 p q)) := fun p q => by
    rw [emb_16]
    exact (outC_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans
      (cell_of_blocks (argsOf m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q (gRow t p) (gCol t q) (rd_0 m c t p) (rd_1 m c t p) (rd_2 m c t p q) (rd_3 m c t q) (rd_4 m c t q) (rd_5 m c t q) (rd_6 m c t q) (rd_7 m c t q) (rd_8 m c t q) (rd_9 m c t q) (rd_10 m c t q) (rd_11 m c t q) (rd_12 m c t q) (rd_13 m c t q) (rd_14 m c t q)).1
  funext y
  obtain ⟨p, q, rfl⟩ : ∃ (p : Fin 1024) (q : Fin 256), y = ix2 p q := ⟨y 0, y 1, eq_ix2 y⟩
  exact key p q

/-- Point `t` writes back its tile of the new hidden state. -/
theorem flushedH_eq (c : Dev nD) (t : Fin cfg0.N) :
    (dats m 0 c).flushed 15 t = ((cfg0.win 15).blk t).view.read (Elt Ideal) (argsOf m c).cellH := by
  rw [Cert.KernelIdeal.Value.flushed15]
  have key : ∀ (p : Fin 1024) (q : Fin 256), out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = (argsOf m c).cellH (((cfg0.win 15).blk t).view.emb (ix2 p q)) := fun p q => by
    rw [emb_15]
    exact (outH_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans
      (cell_of_blocks (argsOf m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q (gRow t p) (gCol t q) (rd_0 m c t p) (rd_1 m c t p) (rd_2 m c t p q) (rd_3 m c t q) (rd_4 m c t q) (rd_5 m c t q) (rd_6 m c t q) (rd_7 m c t q) (rd_8 m c t q) (rd_9 m c t q) (rd_10 m c t q) (rd_11 m c t q) (rd_12 m c t q) (rd_13 m c t q) (rd_14 m c t q)).2
  funext y
  obtain ⟨p, q, rfl⟩ : ∃ (p : Fin 1024) (q : Fin 256), y = ix2 p q := ⟨y 0, y 1, eq_ix2 y⟩
  exact key p q

/-! ## The tiles cover the result arrays -/

/-- An index of the array is in point `t`'s tile iff each coordinate is in the tile's range on its axis. -/
theorem mem_blk16 (t : Fin cfg0.N) (i : S8192x2048.Idx) :
    i ∈ ((cfg0.win 16).blk t).view.set ↔ ∀ a : Fin 2, win0_16.index t a * S1024x256.size a ≤ (i a).val ∧ (i a).val < win0_16.index t a * S1024x256.size a + S1024x256.size a := by
  show i ∈ ((View.whole main_v18_1).slice (win0_16.rect t)).set ↔ _
  rw [View.set_slice_whole, Rect.mem_set_unit]
  exact Iff.rfl

/-- Every tile position is some grid point's. -/
theorem idx_onto16 : ∀ (q0 : Fin 8) (q1 : Fin 8), ∃ t : Fin cfg0.N, win0_16.index t = ![q0.val, q1.val] :=
  (by decide +kernel : ∀ (q0 : Fin 8) (q1 : Fin 8), ∃ t : Fin grid0.N, win0_16.index t = ![q0.val, q1.val])

/-- The 64 tiles cover the array: entry `(r, s)` lies in the tile at `(r / 1024, s / 256)`. -/
theorem cover16 (i : S8192x2048.Idx) : ∃ t : Fin cfg0.N, (cfg0.win 16).flush t = true ∧ i ∈ ((cfg0.win 16).blk t).view.set := by
  have hi0 : (i 0).val < 8192 := (i 0).isLt
  have hi1 : (i 1).val < 2048 := (i 1).isLt
  obtain ⟨t, ht⟩ := idx_onto16 ⟨(i 0).val / 1024, by omega⟩ ⟨(i 1).val / 256, by omega⟩
  have q0 : win0_16.index t (0 : Fin 2) = (i 0).val / 1024 := congrFun ht 0
  have q1 : win0_16.index t (1 : Fin 2) = (i 1).val / 256 := congrFun ht 1
  refine ⟨t, flush0_16 t, ?_⟩
  rw [mem_blk16]
  intro a
  match a with
  | ⟨0, _⟩ => show win0_16.index t (0 : Fin 2) * 1024 ≤ (i 0).val ∧ (i 0).val < win0_16.index t (0 : Fin 2) * 1024 + 1024; omega
  | ⟨1, _⟩ => show win0_16.index t (1 : Fin 2) * 256 ≤ (i 1).val ∧ (i 1).val < win0_16.index t (1 : Fin 2) * 256 + 256; omega

/-- An index of the array is in point `t`'s tile iff each coordinate is in the tile's range on its axis. -/
theorem mem_blk15 (t : Fin cfg0.N) (i : S8192x2048.Idx) :
    i ∈ ((cfg0.win 15).blk t).view.set ↔ ∀ a : Fin 2, win0_15.index t a * S1024x256.size a ≤ (i a).val ∧ (i a).val < win0_15.index t a * S1024x256.size a + S1024x256.size a := by
  show i ∈ ((View.whole main_v18_0).slice (win0_15.rect t)).set ↔ _
  rw [View.set_slice_whole, Rect.mem_set_unit]
  exact Iff.rfl

/-- Every tile position is some grid point's. -/
theorem idx_onto15 : ∀ (q0 : Fin 8) (q1 : Fin 8), ∃ t : Fin cfg0.N, win0_15.index t = ![q0.val, q1.val] :=
  (by decide +kernel : ∀ (q0 : Fin 8) (q1 : Fin 8), ∃ t : Fin grid0.N, win0_15.index t = ![q0.val, q1.val])

/-- The 64 tiles cover the array: entry `(r, s)` lies in the tile at `(r / 1024, s / 256)`. -/
theorem cover15 (i : S8192x2048.Idx) : ∃ t : Fin cfg0.N, (cfg0.win 15).flush t = true ∧ i ∈ ((cfg0.win 15).blk t).view.set := by
  have hi0 : (i 0).val < 8192 := (i 0).isLt
  have hi1 : (i 1).val < 2048 := (i 1).isLt
  obtain ⟨t, ht⟩ := idx_onto15 ⟨(i 0).val / 1024, by omega⟩ ⟨(i 1).val / 256, by omega⟩
  have q0 : win0_15.index t (0 : Fin 2) = (i 0).val / 1024 := congrFun ht 0
  have q1 : win0_15.index t (1 : Fin 2) = (i 1).val / 256 := congrFun ht 1
  refine ⟨t, flush0_15 t, ?_⟩
  rw [mem_blk15]
  intro a
  match a with
  | ⟨0, _⟩ => show win0_15.index t (0 : Fin 2) * 1024 ≤ (i 0).val ∧ (i 0).val < win0_15.index t (0 : Fin 2) * 1024 + 1024; omega
  | ⟨1, _⟩ => show win0_15.index t (1 : Fin 2) * 256 ≤ (i 1).val ∧ (i 1).val < win0_15.index t (1 : Fin 2) * 256 + 256; omega

/-! ## The result arrays after the run -/

/-- After the run the second result array is the new cell state. -/
theorem finalC (c : Dev nD) : (dats m 0 c).arrAt 16 cfg0.N = (argsOf m c).cellC :=
  (dats m 0 c).arrAt_eq_of_cover 16 (argsOf m c).cellC (fun t _ => flushedC_eq m c t) cover16

/-- After the run the first result array is the new hidden state. -/
theorem finalH (c : Dev nD) : (dats m 0 c).arrAt 15 cfg0.N = (argsOf m c).cellH :=
  (dats m 0 c).arrAt_eq_of_cover 15 (argsOf m c).cellH (fun t _ => flushedH_eq m c t) cover15

/-- Every weakly fair execution of the kernel's program terminates with its two results at the cell of the arguments
    and the arguments unchanged. -/
theorem run : θ_run defs (onTc (τ := τ) (main (F := Ideal))) ⟨m, fun _ => 0, ρ⟩ fun r => ∀ c : Dev nD,
      r.2.mem ((c : Thread nD τ).loc main_v18_0) = (argsOf m c).cellH
      ∧ r.2.mem ((c : Thread nD τ).loc main_v18_1) = (argsOf m c).cellC
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (finalH m c), (h c).2.1.trans (finalC m c), (h c).2.2⟩)
    (Cert.KernelIdeal.Value.run_blocks m ρ)

end Cert.KernelIdeal.LstmArrays

end
-- ==== Proof.LibConcatFour.lean ====
/-
  A concatenation of FOUR pieces of one shape, read at an index.

  `jnp.concatenate([y0, y1, y2, y3], axis=0)` of four `[n, c]` arrays is a `[T, c]` array (`T = 4·n`) whose row
  `g·n + r` is row `r` of piece `g`; of four `[n]` vectors it is a `[T]` vector whose entry `g·n + r` is entry `r` of
  piece `g`. Both are the library's reading of a concatenation at an index — the piece whose span along the joined
  axis holds the coordinate, at the coordinate less the extents before it — with the four cases written out.
-/
import Idealize.ShloMosaic.Lib.Pipeline.Value
import Idealize.ShloMosaic.Lib.ValueIdx

namespace ConcatFour

open Idealize.ShloMosaic Idealize.ShloMosaic.ValueIdx

variable {α : Type}

/-- The four pieces of one shape as the list a concatenation takes. -/
abbrev four {s : Shape} (y0 y1 y2 y3 : s.Idx → α) : List ((s : Shape) × (s.Idx → α)) := [⟨s, y0⟩, ⟨s, y1⟩, ⟨s, y2⟩, ⟨s, y3⟩]

/-- The four pieces as a family over `Fin 4`. -/
def pick (y0 y1 y2 y3 : α) : Fin 4 → α
  | ⟨0, _⟩ => y0 | ⟨1, _⟩ => y1 | ⟨2, _⟩ => y2 | ⟨3, _⟩ => y3
  | ⟨_ + 4, h⟩ => absurd h (Nat.not_lt.2 (Nat.le_add_left _ _))

/-- Four `[n, c]` arrays stacked along the rows: row `g·n + r` of the result is row `r` of piece `g`. -/
theorem rows_apply {n c T : Nat} (y0 y1 y2 y3 : (⟨2, ![n, c]⟩ : Shape).Idx → α)
    (h : Shape.Concatenates [(⟨2, ![n, c]⟩ : Shape), ⟨2, ![n, c]⟩, ⟨2, ![n, c]⟩, ⟨2, ![n, c]⟩] (⟨2, ![T, c]⟩ : Shape) 0)
    (g : Fin 4) (r : Fin n) (q : Fin c) (R : Fin T) (hR : R.val = g.val * n + r.val) :
    concatenate (⟨2, ![T, c]⟩ : Shape) 0 [⟨⟨2, ![n, c]⟩, y0⟩, ⟨⟨2, ![n, c]⟩, y1⟩, ⟨⟨2, ![n, c]⟩, y2⟩, ⟨⟨2, ![n, c]⟩, y3⟩] h (ix2 R q)
      = pick y0 y1 y2 y3 g (ix2 r q) := by
  have hoff : ∀ b : Fin 2, b.cast rfl ≠ (0 : Fin 2) → ((ix2 r q : (⟨2, ![n, c]⟩ : Shape).Idx) b).val = ((ix2 R q : (⟨2, ![T, c]⟩ : Shape).Idx) (b.cast rfl)).val := by
    intro b hb
    match b, hb with
    | ⟨0, _⟩, hb => exact absurd rfl hb
    | ⟨1, _⟩, _ => rfl
  match g, hR with
  | ⟨0, _⟩, hR =>
    exact concatenate_apply_piece (t := ⟨2, ![T, c]⟩) 0 (four y0 y1 y2 y3) h (ix2 R q) 0 (by show (0 : Nat) < 4; omega) ⟨2, ![n, c]⟩ y0 rfl rfl 0 (by simp <;> omega)
      (ix2 r q) hoff (by show 0 + r.val = R.val; simp at hR; omega)
  | ⟨1, _⟩, hR =>
    exact concatenate_apply_piece (t := ⟨2, ![T, c]⟩) 0 (four y0 y1 y2 y3) h (ix2 R q) 1 (by show (1 : Nat) < 4; omega) ⟨2, ![n, c]⟩ y1 rfl rfl n (by simp <;> omega)
      (ix2 r q) hoff (by show n + r.val = R.val; simp at hR; omega)
  | ⟨2, _⟩, hR =>
    exact concatenate_apply_piece (t := ⟨2, ![T, c]⟩) 0 (four y0 y1 y2 y3) h (ix2 R q) 2 (by show (2 : Nat) < 4; omega) ⟨2, ![n, c]⟩ y2 rfl rfl (n + n) (by simp <;> omega)
      (ix2 r q) hoff (by show n + n + r.val = R.val; simp at hR; omega)
  | ⟨3, _⟩, hR =>
    exact concatenate_apply_piece (t := ⟨2, ![T, c]⟩) 0 (four y0 y1 y2 y3) h (ix2 R q) 3 (by show (3 : Nat) < 4; omega) ⟨2, ![n, c]⟩ y3 rfl rfl (n + n + n) (by simp <;> omega)
      (ix2 r q) hoff (by show n + n + n + r.val = R.val; simp at hR; omega)

/-- Four `[n]` vectors laid end to end: entry `g·n + r` of the result is entry `r` of piece `g`. -/
theorem vec_apply {n T : Nat} (y0 y1 y2 y3 : (⟨1, ![n]⟩ : Shape).Idx → α)
    (h : Shape.Concatenates [(⟨1, ![n]⟩ : Shape), ⟨1, ![n]⟩, ⟨1, ![n]⟩, ⟨1, ![n]⟩] (⟨1, ![T]⟩ : Shape) 0)
    (g : Fin 4) (r : Fin n) (R : Fin T) (hR : R.val = g.val * n + r.val) :
    concatenate (⟨1, ![T]⟩ : Shape) 0 [⟨⟨1, ![n]⟩, y0⟩, ⟨⟨1, ![n]⟩, y1⟩, ⟨⟨1, ![n]⟩, y2⟩, ⟨⟨1, ![n]⟩, y3⟩] h (ix1 R)
      = pick y0 y1 y2 y3 g (ix1 r) := by
  have hoff : ∀ b : Fin 1, b.cast rfl ≠ (0 : Fin 1) → ((ix1 r : (⟨1, ![n]⟩ : Shape).Idx) b).val = ((ix1 R : (⟨1, ![T]⟩ : Shape).Idx) (b.cast rfl)).val := by
    intro b hb
    match b, hb with
    | ⟨0, _⟩, hb => exact absurd rfl hb
  match g, hR with
  | ⟨0, _⟩, hR =>
    exact concatenate_apply_piece (t := ⟨1, ![T]⟩) 0 (four y0 y1 y2 y3) h (ix1 R) 0 (by show (0 : Nat) < 4; omega) ⟨1, ![n]⟩ y0 rfl rfl 0 (by simp <;> omega)
      (ix1 r) hoff (by show 0 + r.val = R.val; simp at hR; omega)
  | ⟨1, _⟩, hR =>
    exact concatenate_apply_piece (t := ⟨1, ![T]⟩) 0 (four y0 y1 y2 y3) h (ix1 R) 1 (by show (1 : Nat) < 4; omega) ⟨1, ![n]⟩ y1 rfl rfl n (by simp <;> omega)
      (ix1 r) hoff (by show n + r.val = R.val; simp at hR; omega)
  | ⟨2, _⟩, hR =>
    exact concatenate_apply_piece (t := ⟨1, ![T]⟩) 0 (four y0 y1 y2 y3) h (ix1 R) 2 (by show (2 : Nat) < 4; omega) ⟨1, ![n]⟩ y2 rfl rfl (n + n) (by simp <;> omega)
      (ix1 r) hoff (by show n + n + r.val = R.val; simp at hR; omega)
  | ⟨3, _⟩, hR =>
    exact concatenate_apply_piece (t := ⟨1, ![T]⟩) 0 (four y0 y1 y2 y3) h (ix1 R) 3 (by show (3 : Nat) < 4; omega) ⟨1, ![n]⟩ y3 rfl rfl (n + n + n) (by simp <;> omega)
      (ix1 r) hoff (by show n + n + n + r.val = R.val; simp at hR; omega)

end ConcatFour
-- ==== Proof.RefCell.lean ====
/-
  The reference program computes the cell.

  The reference stacks the four gates' input weights into one `[8192, 2048]` matrix (gate `g` in rows `g·2048 …`), the
  hidden weights likewise, and the four summed biases into one `[8192]` vector, forms
      gates = (x · Wxᵀ + h0 · Whᵀ) + b           of shape [8192, 8192],
  and cuts gate `g` out as columns `g·2048 … (g+1)·2048`. So `gates[b, g·2048 + j]` contracts row `b` of `x` with row
  `g·2048 + j` of the stack, which is row `j` of gate `g`'s own weights: the gate's pre-activation, term for term and
  in the same grouping. The reference spells the logistic function out as `1 / (1 + exp(−z))` with the constant `1.0`;
  on the extended reals that IS the logistic function, by its definition.
-/
import proofs.«107104_j57990648430624_1_alg».proof.Proof.Gen.ReferenceIdeal.Read
import proofs.«107104_j57990648430624_1_alg».proof.Proof.LstmSpec
import proofs.«107104_j57990648430624_1_alg».proof.Proof.LibConcatFour

noncomputable section

namespace Cert.ReferenceIdeal.LstmRef

open Cert.ReferenceIdeal Cert.ReferenceIdeal.Gen Cert.ReferenceIdeal.Read Idealize.ShloMosaic Idealize.ShloMosaic.ValueIdx
open LstmCell ConcatFour

/-! ## The stacked weights and biases at a row of gate `g` -/

theorem stackX_apply (y0 y1 y2 y3 : Mat 2048 2048) (g : Fin 4) (j k : Fin 2048) (C : Fin 8192) (hC : C.val = g.val * 2048 + j.val) :
    val_main_v0 (F := Ideal) y0 y1 y2 y3 (ix2 C k) = pick y0 y1 y2 y3 g (ix2 j k) := by
  unfold val_main_v0
  exact rows_apply y0 y1 y2 y3 _ g j k C hC

theorem stackH_apply (y0 y1 y2 y3 : Mat 2048 2048) (g : Fin 4) (j k : Fin 2048) (C : Fin 8192) (hC : C.val = g.val * 2048 + j.val) :
    val_main_v1 (F := Ideal) y0 y1 y2 y3 (ix2 C k) = pick y0 y1 y2 y3 g (ix2 j k) := by
  unfold val_main_v1
  exact rows_apply y0 y1 y2 y3 _ g j k C hC

theorem stackB_apply (x4 x6 x8 x10 x12 x14 x16 x18 : Row 2048) (g : Fin 4) (j : Fin 2048) (C : Fin 8192) (hC : C.val = g.val * 2048 + j.val) :
    val_main_v6 (F := Ideal) x4 x6 x8 x10 x12 x14 x16 x18 (ix1 C)
      = pick (val_main_v2 (F := Ideal) x4 x6) (val_main_v3 (F := Ideal) x8 x10) (val_main_v4 (F := Ideal) x12 x14) (val_main_v5 (F := Ideal) x16 x18) g (ix1 j) := by
  unfold val_main_v6
  exact vec_apply _ _ _ _ _ g j C hC

/-- The stacked bias at a row of gate `g` is the sum of that gate's two biases there. -/
theorem pick_bias (x4 x6 x8 x10 x12 x14 x16 x18 : Row 2048) (g : Fin 4) (i : (⟨1, ![2048]⟩ : Shape).Idx) :
    pick (val_main_v2 (F := Ideal) x4 x6) (val_main_v3 (F := Ideal) x8 x10) (val_main_v4 (F := Ideal) x12 x14) (val_main_v5 (F := Ideal) x16 x18) g i
      = pick x4 x8 x12 x16 g i + pick x6 x10 x14 x18 g i := by
  match g with
  | ⟨0, _⟩ => rfl
  | ⟨1, _⟩ => rfl
  | ⟨2, _⟩ => rfl
  | ⟨3, _⟩ => rfl

/-! ## The gates matrix at column `g·2048 + j` -/

variable (a : Args)

/-- `gates[b, g·2048 + j]` is gate `g`'s pre-activation at `(b, j)`. -/
theorem gates_apply (g : Fin 4) (b : Fin 8192) (j : Fin 2048) (C : Fin 8192) (hC : C.val = g.val * 2048 + j.val) :
    val_main_v14 (F := Ideal) a.x a.h0 a.Wii a.bIi a.Whi a.bHi a.Wif a.bIf a.Whf a.bHf a.Wig a.bIg a.Whg a.bHg a.Wio a.bIo a.Who a.bHo (ix2 b C)
      = pre a.x a.h0 (pick a.Wii a.Wif a.Wig a.Wio g) (pick a.Whi a.Whf a.Whg a.Who g)
          (pick a.bIi a.bIf a.bIg a.bIo g) (pick a.bHi a.bHf a.bHg a.bHo g) b j := by
  have eL8 : ∀ k : Fin 2048, lidx_main_v8 (ix2 b C) k = ix2 b k := fun k => funext fun d => by
    match d with
    | ⟨0, _⟩ => rfl
    | ⟨1, _⟩ => rfl
  have eR8 : ∀ k : Fin 2048, idx_main_v7 (ridx_main_v8 (ix2 b C) k) = ix2 C k := fun k => funext fun d => by
    match d with
    | ⟨0, _⟩ => rfl
    | ⟨1, _⟩ => rfl
  have eL10 : ∀ k : Fin 2048, lidx_main_v10 (ix2 b C) k = ix2 b k := fun k => funext fun d => by
    match d with
    | ⟨0, _⟩ => rfl
    | ⟨1, _⟩ => rfl
  have eR10 : ∀ k : Fin 2048, idx_main_v9 (ridx_main_v10 (ix2 b C) k) = ix2 C k := fun k => funext fun d => by
    match d with
    | ⟨0, _⟩ => rfl
    | ⟨1, _⟩ => rfl
  have eB : idx_main_v12 (idx_main_v13 (ix2 b C)) = ix1 C := funext fun d => by
    match d with
    | ⟨0, _⟩ => rfl
  have hX : ∀ k : Fin 2048, a.x (lidx_main_v8 (ix2 b C) k) * val_main_v7 (F := Ideal) a.Wii a.Wif a.Wig a.Wio (ridx_main_v8 (ix2 b C) k)
      = a.x (ix2 b k) * pick a.Wii a.Wif a.Wig a.Wio g (ix2 j k) := fun k => by
    rw [val_main_v7_apply]
    exact congrArg₂ (· * ·) (congrArg a.x (eL8 k)) ((congrArg _ (eR8 k)).trans (stackX_apply _ _ _ _ g j k C hC))
  have hH : ∀ k : Fin 2048, a.h0 (lidx_main_v10 (ix2 b C) k) * val_main_v9 (F := Ideal) a.Whi a.Whf a.Whg a.Who (ridx_main_v10 (ix2 b C) k)
      = a.h0 (ix2 b k) * pick a.Whi a.Whf a.Whg a.Who g (ix2 j k) := fun k => by
    rw [val_main_v9_apply]
    exact congrArg₂ (· * ·) (congrArg a.h0 (eL10 k)) ((congrArg _ (eR10 k)).trans (stackH_apply _ _ _ _ g j k C hC))
  have hB : val_main_v12 (F := Ideal) a.bIi a.bHi a.bIf a.bHf a.bIg a.bHg a.bIo a.bHo (idx_main_v13 (ix2 b C))
      = pick a.bIi a.bIf a.bIg a.bIo g (ix1 j) + pick a.bHi a.bHf a.bHg a.bHo g (ix1 j) := by
    rw [val_main_v12_apply]
    exact ((congrArg _ eB).trans (stackB_apply _ _ _ _ _ _ _ _ g j C hC)).trans (pick_bias _ _ _ _ _ _ _ _ g _)
  rw [val_main_v14_apply, val_main_v11_apply, val_main_v8_apply, val_main_v10_apply, val_main_v13_apply, hB,
    Finset.sum_congr rfl fun k _ => hX k, Finset.sum_congr rfl fun k _ => hH k]
  rfl

/-! ## The logistic function as the reference spells it -/

theorem one_bits : Ideal.ofBits .f32 0x3F800000#32 = (1 : EReal) := by
  simp [Ideal.ofBits, Ideal.ieee, -EReal.coe_mul]; norm_num

/-- `1.0 / (1.0 + exp(−z))` in the host's operations is the logistic function of `z`. -/
theorem sigmoid_host (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [one_bits]; rfl

/-! ## The four column bands of the gates matrix -/

theorem band_i (b : Fin 8192) (j : Fin 2048) :
    val_main_v15 (F := Ideal) a.x a.h0 a.Wii a.bIi a.Whi a.bHi a.Wif a.bIf a.Whf a.bHf a.Wig a.bIg a.Whg a.bHg a.Wio a.bIo a.Who a.bHo (ix2 b j) = pre a.x a.h0 a.Wii a.Whi a.bIi a.bHi b j := by
  have hlt : 0 + j.val < 8192 := by have := j.isLt; omega
  have e : idx_main_v15 (ix2 b j) = ix2 b (⟨0 + j.val, hlt⟩ : Fin 8192) := funext fun d => by
    match d with
    | ⟨0, _⟩ => rfl
    | ⟨1, _⟩ => exact Fin.ext (Nat.zero_add _).symm
  rw [val_main_v15_apply]
  exact (congrArg _ e).trans (gates_apply a ⟨0, by decide⟩ b j ⟨0 + j.val, hlt⟩ (by show 0 + j.val = 0 * 2048 + j.val; omega))

theorem band_f (b : Fin 8192) (j : Fin 2048) :
    val_main_v22 (F := Ideal) a.x a.h0 a.Wii a.bIi a.Whi a.bHi a.Wif a.bIf a.Whf a.bHf a.Wig a.bIg a.Whg a.bHg a.Wio a.bIo a.Who a.bHo (ix2 b j) = pre a.x a.h0 a.Wif a.Whf a.bIf a.bHf b j := by
  have hlt : 2048 + j.val < 8192 := by have := j.isLt; omega
  have e : idx_main_v22 (ix2 b j) = ix2 b (⟨2048 + j.val, hlt⟩ : Fin 8192) := funext fun d => by
    match d with
    | ⟨0, _⟩ => rfl
    | ⟨1, _⟩ => rfl
  rw [val_main_v22_apply]
  exact (congrArg _ e).trans (gates_apply a ⟨1, by decide⟩ b j ⟨2048 + j.val, hlt⟩ (by show 2048 + j.val = 1 * 2048 + j.val; omega))

theorem band_g (b : Fin 8192) (j : Fin 2048) :
    val_main_v29 (F := Ideal) a.x a.h0 a.Wii a.bIi a.Whi a.bHi a.Wif a.bIf a.Whf a.bHf a.Wig a.bIg a.Whg a.bHg a.Wio a.bIo a.Who a.bHo (ix2 b j) = pre a.x a.h0 a.Wig a.Whg a.bIg a.bHg b j := by
  have hlt : 4096 + j.val < 8192 := by have := j.isLt; omega
  have e : idx_main_v29 (ix2 b j) = ix2 b (⟨4096 + j.val, hlt⟩ : Fin 8192) := funext fun d => by
    match d with
    | ⟨0, _⟩ => rfl
    | ⟨1, _⟩ => rfl
  rw [val_main_v29_apply]
  exact (congrArg _ e).trans (gates_apply a ⟨2, by decide⟩ b j ⟨4096 + j.val, hlt⟩ (by show 4096 + j.val = 2 * 2048 + j.val; omega))

theorem band_o (b : Fin 8192) (j : Fin 2048) :
    val_main_v31 (F := Ideal) a.x a.h0 a.Wii a.bIi a.Whi a.bHi a.Wif a.bIf a.Whf a.bHf a.Wig a.bIg a.Whg a.bHg a.Wio a.bIo a.Who a.bHo (ix2 b j) = pre a.x a.h0 a.Wio a.Who a.bIo a.bHo b j := by
  have hlt : 6144 + j.val < 8192 := by have := j.isLt; omega
  have e : idx_main_v31 (ix2 b j) = ix2 b (⟨6144 + j.val, hlt⟩ : Fin 8192) := funext fun d => by
    match d with
    | ⟨0, _⟩ => rfl
    | ⟨1, _⟩ => rfl
  rw [val_main_v31_apply]
  exact (congrArg _ e).trans (gates_apply a ⟨3, by decide⟩ b j ⟨6144 + j.val, hlt⟩ (by show 6144 + j.val = 3 * 2048 + j.val; omega))

/-! ## The four gates -/

theorem ref_gateI (b : Fin 8192) (j : Fin 2048) :
    val_main_v21 (F := Ideal) a.x a.h0 a.Wii a.bIi a.Whi a.bHi a.Wif a.bIf a.Whf a.bHf a.Wig a.bIg a.Whg a.bHg a.Wio a.bIo a.Who a.bHo (ix2 b j) = a.gateI b j := by
  rw [val_main_v21_apply, val_main_v20_apply, val_main_cst_0_apply, val_main_v19_apply, val_main_v18_apply, val_main_cst_apply,
    val_main_v17_apply, val_main_v16_apply, band_i, sigmoid_host]
  rfl

theorem ref_gateF (b : Fin 8192) (j : Fin 2048) :
    val_main_v28 (F := Ideal) a.x a.h0 a.Wii a.bIi a.Whi a.bHi a.Wif a.bIf a.Whf a.bHf a.Wig a.bIg a.Whg a.bHg a.Wio a.bIo a.Who a.bHo (ix2 b j) = a.gateF b j := by
  rw [val_main_v28_apply, val_main_v27_apply, val_main_cst_2_apply, val_main_v26_apply, val_main_v25_apply, val_main_cst_1_apply,
    val_main_v24_apply, val_main_v23_apply, band_f, sigmoid_host]
  rfl

theorem ref_gateO (b : Fin 8192) (j : Fin 2048) :
    val_main_v37 (F := Ideal) a.x a.h0 a.Wii a.bIi a.Whi a.bHi a.Wif a.bIf a.Whf a.bHf a.Wig a.bIg a.Whg a.bHg a.Wio a.bIo a.Who a.bHo (ix2 b j) = a.gateO b j := by
  rw [val_main_v37_apply, val_main_v36_apply, val_main_cst_4_apply, val_main_v35_apply, val_main_v34_apply, val_main_cst_3_apply,
    val_main_v33_apply, val_main_v32_apply, band_o, sigmoid_host]
  rfl

theorem ref_gateG (b : Fin 8192) (j : Fin 2048) :
    val_main_v30 (F := Ideal) a.x a.h0 a.Wii a.bIi a.Whi a.bHi a.Wif a.bIf a.Whf a.bHf a.Wig a.bIg a.Whg a.bHg a.Wio a.bIo a.Who a.bHo (ix2 b j) = a.gateG b j := by
  rw [val_main_v30_apply, band_g]
  rfl

/-! ## The reference's two results are the cell's -/

/-- The reference's second result is the new cell state. -/
theorem ref_c : val_main_v40 (F := Ideal) a.x a.h0 a.c0 a.Wii a.bIi a.Whi a.bHi a.Wif a.bIf a.Whf a.bHf a.Wig a.bIg a.Whg a.bHg a.Wio a.bIo a.Who a.bHo = a.cellC := by
  funext i
  obtain ⟨b, j, rfl⟩ : ∃ (b : Fin 8192) (j : Fin 2048), i = ix2 b j := ⟨i 0, i 1, eq_ix2 i⟩
  rw [Args.cellC_ix2, val_main_v40_apply, val_main_v38_apply, val_main_v39_apply, ref_gateF, ref_gateI, ref_gateG]
  rfl

/-- The reference's first result is the new hidden state. -/
theorem ref_h : val_main_v42 (F := Ideal) a.x a.h0 a.c0 a.Wii a.bIi a.Whi a.bHi a.Wif a.bIf a.Whf a.bHf a.Wig a.bIg a.Whg a.bHg a.Wio a.bIo a.Who a.bHo = a.cellH := by
  funext i
  obtain ⟨b, j, rfl⟩ : ∃ (b : Fin 8192) (j : Fin 2048), i = ix2 b j := ⟨i 0, i 1, eq_ix2 i⟩
  rw [Args.cellH_ix2, val_main_v42_apply, val_main_v41_apply, ref_gateO, ref_c]
  rfl

end Cert.ReferenceIdeal.LstmRef

end
-- ==== Proof.lean ====
/-
  One LSTM cell step, fused in one kernel on an 8 × 8 grid, against the plain formulation that stacks the four gates.

  Both programs compute, for batch row `b` and hidden unit `j`,
      pre_g = (∑ₖ x[b,k]·Wx_g[j,k] + ∑ₖ h0[b,k]·Wh_g[j,k]) + (bx_g[j] + bh_g[j])      for the gates g = i, f, g, o,
      c = σ(pre_f)·c0[b,j] + σ(pre_i)·tanh(pre_g),          h = σ(pre_o)·tanh(c),
  and return `(h, c)`. The kernel narrows `x`, `h0` and the weights to a shorter float format first (the identity on
  extended reals), contracts per gate the last axes of a `[1024, 2048]` block and a `[256, 2048]` block of weights, and
  applies its one logistic operation. The reference stacks the weights and the summed biases of the four gates, makes
  two `[8192, 8192]` products against the transposed stacks, adds the stacked bias, cuts the four column bands out and
  spells the logistic function `1 / (1 + exp(−z))`. Over the extended reals these are the same function of the nineteen
  arguments with the same grouping of every sum, so no law beyond unfolding joins them, and finiteness of the inputs is
  never used: LstmSpec states the function, KernelBlock and KernelArrays show the kernel's two result arrays are it,
  RefCell shows the reference's two results are it.

  The three frames are the generated ones (the reference's is its run with the results dropped); the kernel's
  idealization rewrote nothing, so there is nothing to preserve.
-/
import proofs.«107104_j57990648430624_1_alg».proof.Defs
import proofs.«107104_j57990648430624_1_alg».proof.Proof.Gen.Kernel
import proofs.«107104_j57990648430624_1_alg».proof.Proof.Gen.Kernel.Skeleton
import proofs.«107104_j57990648430624_1_alg».proof.Proof.Gen.Kernel.Launch
import proofs.«107104_j57990648430624_1_alg».proof.Proof.Gen.Kernel.Points
import proofs.«107104_j57990648430624_1_alg».proof.Proof.Gen.Kernel.Frame
import proofs.«107104_j57990648430624_1_alg».proof.Proof.Gen.KernelIdeal
import proofs.«107104_j57990648430624_1_alg».proof.Proof.Gen.KernelIdeal.Skeleton
import proofs.«107104_j57990648430624_1_alg».proof.Proof.Gen.KernelIdeal.Launch
import proofs.«107104_j57990648430624_1_alg».proof.Proof.Gen.KernelIdeal.Points
import proofs.«107104_j57990648430624_1_alg».proof.Proof.Gen.KernelIdeal.Frame
import proofs.«107104_j57990648430624_1_alg».proof.Proof.Gen.ReferenceIdeal
import proofs.«107104_j57990648430624_1_alg».proof.Proof.Gen.Pre_finite_inputs
import proofs.«107104_j57990648430624_1_alg».proof.Proof.Gen.KernelIdeal.Value
import proofs.«107104_j57990648430624_1_alg».proof.Proof.Gen.ReferenceIdeal.Run
import proofs.«107104_j57990648430624_1_alg».proof.Proof.Gen.ReferenceIdeal.Read
import proofs.«107104_j57990648430624_1_alg».proof.Proof.KernelArrays
import proofs.«107104_j57990648430624_1_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the nineteen arguments, the kernel's result arrays and the reference's results are both
    the cell of those arguments: the new hidden state first, the new cell state second. -/
theorem algebraic : Cert.algebraic_KernelIdeal_ReferenceIdeal := by
  intro m ρ m' ρ' _ hagree
  refine ⟨fun c => (Cert.KernelIdeal.LstmArrays.argsOf m c).cellH, fun c => (Cert.KernelIdeal.LstmArrays.argsOf m c).cellC,
    Cert.KernelIdeal.LstmArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v42_eq, a0, a1, a2, a3, a4, a5, a6, a7, a8, a9, a10, a11, a12, a13, a14, a15, a16, a17, a18]
    exact Cert.ReferenceIdeal.LstmRef.ref_h (Cert.KernelIdeal.LstmArrays.argsOf m c)
  · obtain ⟨a0, a1, a2, a3, a4, a5, a6, a7, a8, a9, a10, a11, a12, a13, a14, a15, a16, a17, a18⟩ := hagree c
    rw [Cert.ReferenceIdeal.Read.val_main_v40_eq, a0, a1, a2, a3, a4, a5, a6, a7, a8, a9, a10, a11, a12, a13, a14, a15, a16, a17, a18]
    exact Cert.ReferenceIdeal.LstmRef.ref_c (Cert.KernelIdeal.LstmArrays.argsOf m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
